-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S4096x20 : Shape := ⟨2, ![4096, 20]⟩
abbrev S_ : Shape := ⟨0, ![]⟩

class Facts : Prop where

variable [Facts]

def fn {F : FTy → Type} [FloatOps F] (main_arg0 : IVec S4096x20 32) : IVec S_ 1 :=
  let main_c : IVec S_ 1 := constantI S_ 1 1#1
  main_c
-- ==== Kernel.lean ====
abbrev S4096x20 : Shape := ⟨2, ![4096, 20]⟩
abbrev S4096x20x1000 : Shape := ⟨3, ![4096, 20, 1000]⟩
abbrev S128x20 : Shape := ⟨2, ![128, 20]⟩
abbrev S128x20x1000 : Shape := ⟨3, ![128, 20, 1000]⟩
abbrev S128x20x1 : Shape := ⟨3, ![128, 20, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x20, .i32⟩
  | .hbm, ⟨1, _⟩ => ⟨S4096x20x1000, .f32⟩
  | .local _ .vmem, ⟨0, _⟩ => ⟨S128x20, .i32⟩
  | .local _ .vmem, ⟨1, _⟩ => ⟨S128x20, .i32⟩
  | .local _ .vmem, ⟨2, _⟩ => ⟨S128x20x1000, .f32⟩
  | .local _ .vmem, ⟨3, _⟩ => ⟨S128x20x1000, .f32⟩
  | _, _ => ⟨S4096x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x20 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x20x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x20_S128x20_0_0 : ∀ a, (![0, 0] : Fin 2 → Nat) a + S128x20.size a ≤ S128x20.size a
  h_S128x20 : 0 < S128x20.numel
  iota_S128x20x1000_d2_w32 : S128x20x1000.Iotas .tc 32 [2]
  shapeCasts_S128x20_S128x20x1 : S128x20.ShapeCasts S128x20x1
  broadcasts_S128x20x1_S128x20x1000 : S128x20x1.Broadcasts S128x20x1000
  natLt_1_32 : 1 < 32
  inb_S128x20x1000_S128x20x1000_0_0_0 : ∀ a, (![0, 0, 0] : Fin 3 → Nat) a + S128x20x1000.size a ≤ S128x20x1000.size a
  h_S128x20x1000 : 0 < S128x20x1000.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x20.size a ≤ S4096x20.size a
  hwx0_0 : ∀ i : grid0.Coords, EltTy.bits .i32 = 32 ∨ (Rect.block (s := S4096x20) S128x20.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x20x1000.size a ≤ S4096x20x1000.size a
  hwx0_1 : ∀ i : grid0.Coords, EltTy.bits .f32 = 32 ∨ (Rect.block (s := S4096x20x1000) S128x20x1000.size (cc0_transform_1 i) (hinb0_1 i)).WholeWords (EltTy.packing .f32)

variable [Facts₀]

abbrev win0_0 : Pipeline.Window sig grid0 :=
  Pipeline.Window.ofSpec (Memref.whole main_arg0) S128x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x20x1000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x20 : Shape := ⟨2, ![4096, 20]⟩
abbrev S4096x20x1 : Shape := ⟨3, ![4096, 20, 1]⟩
abbrev S1x1x1000 : Shape := ⟨3, ![1, 1, 1000]⟩
abbrev S4096x20x1000 : Shape := ⟨3, ![4096, 20, 1000]⟩

abbrev nBuf : Space → Nat
  | .hbm => 7
  | .vmem => 0
  | .smem => 0
  | _ => 0

abbrev bufTy : (tb : Table) → Fin (tcTables nBuf tb) → BufTy
  | .hbm, ⟨0, _⟩ => ⟨S4096x20, .i32⟩
  | .hbm, ⟨1, _⟩ => ⟨S4096x20x1, .i32⟩
  | .hbm, ⟨2, _⟩ => ⟨S1x1x1000, .i32⟩
  | .hbm, ⟨3, _⟩ => ⟨S4096x20x1000, .i32⟩
  | .hbm, ⟨4, _⟩ => ⟨S4096x20x1000, .i32⟩
  | .hbm, ⟨5, _⟩ => ⟨S4096x20x1000, .i1⟩
  | .hbm, ⟨6, _⟩ => ⟨S4096x20x1000, .f32⟩
  | _, _ => ⟨S4096x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]

class Facts₀ : Prop where
  bcast_S4096x20_S4096x20x1_0_1 : S4096x20.BroadcastsInDim S4096x20x1 (![0, 1] : Fin 2 → Fin S4096x20x1.rank)
  bcast_S4096x20x1_S4096x20x1000_0_1_2 : S4096x20x1.BroadcastsInDim S4096x20x1000 (![0, 1, 2] : Fin 3 → Fin S4096x20x1000.rank)
  bcast_S1x1x1000_S4096x20x1000_0_1_2 : S1x1x1000.BroadcastsInDim S4096x20x1000 (![0, 1, 2] : Fin 3 → Fin S4096x20x1000.rank)

variable [Facts₀]

class Facts : Prop extends Facts₀ where

variable [Facts]
-- ==== Proof.OneHot.lean ====
/-
  One-hot encoding as ONE function of the index array, and the scalar fact in which the two programs' conversions meet.

  An array `x` of 32-bit words is indexed by (row, position). Its one-hot expansion over `n` classes holds, at
  (row, position, class `k`), the indicator of "the word `x (row, position)` is `k` written as a 32-bit word": the
  extended real 1 where it is, 0 where it is not. A word outside `[0, n)` — a negative one, or one at least `n` —
  equals no class number, so its row of the expansion is all zeros; nothing is asked of the words.

  The indicator is written here as the one-bit word of the comparison read as a natural number (0 or 1) and then as a
  real. One program compares "class = word", widens the bit to 32 bits with zeros and reads the result SIGNED; the
  other compares "word = class" and reads the bit UNSIGNED. Equality is symmetric, and a 32-bit word whose upper 31 bits
  are zero is non-negative, so its signed reading is its unsigned one: both are the indicator (`signed_widened_eq`).
-/
import Idealize.ShloMosaic.PureOps.Ideal
import Idealize.ShloMosaic.Lib.ValueIdx

noncomputable section

namespace Cert.OneHot

open Idealize.ShloMosaic Idealize.ShloMosaic.ValueIdx

/-- The indicator of "the word `w` is the class number `k`", as an extended real: the comparison's bit, read unsigned. -/
def indicator (w : BitVec 32) (k : Nat) : EReal :=
  (((IntOp.cmpi .eq w (BitVec.ofNat 32 k)).toNat : ℝ) : EReal)

/-- The one-hot expansion of a `[4096, 20]` array of words over 1000 classes: at (row, position, class) the indicator
    of the word at (row, position) against the class. -/
def expand (x : (⟨2, ![4096, 20]⟩ : Shape).Idx → BitVec 32) : (⟨3, ![4096, 20, 1000]⟩ : Shape).Idx → EReal :=
  fun i => indicator (x (ix2 (i 0) (i 1))) (i 2).val

/-- A one-bit word widened to 32 bits with zeros and read signed is the bit read unsigned: the widened word is 0 or 1,
    never negative. -/
theorem toInt_widened_bit : ∀ b : BitVec 1, (b.setWidth 32).toInt = (b.toNat : Int) := by decide

/-- The equality comparison does not depend on the order of its operands. -/
theorem cmpi_eq_comm (a b : BitVec 32) : IntOp.cmpi .eq a b = IntOp.cmpi .eq b a := by
  unfold IntOp.cmpi
  congr 1
  exact Bool.eq_iff_iff.mpr (by simp only [beq_iff_eq]; exact eq_comm)

/-- "class = word", widened and read signed at the ideal instance, is the indicator. -/
theorem signed_widened_eq (w : BitVec 32) (k : Nat) :
    FloatOps.sitofp (F := Ideal) .f32 ((IntOp.cmpi .eq (BitVec.ofNat 32 k) w).setWidth 32) = indicator w k := by
  unfold indicator
  rw [cmpi_eq_comm (BitVec.ofNat 32 k) w]
  show (((((IntOp.cmpi .eq w (BitVec.ofNat 32 k)).setWidth 32).toInt : ℝ)) : EReal) = _
  rw [toInt_widened_bit]
  norm_cast

/-- "word = class", read unsigned at the ideal instance, is the indicator. -/
theorem unsigned_eq (w : BitVec 32) (k : Nat) :
    FloatOps.uitofp (F := Ideal) .f32 (IntOp.cmpi .eq w (BitVec.ofNat 32 k)) = indicator w k := rfl

end Cert.OneHot

end
-- ==== Proof.KernelValue.lean ====
/-
  The kernel's result array is the one-hot expansion of its argument.

  The kernel walks the 4096 rows in 32 blocks of 128. At block `t` it loads rows `128 t … 128 t + 127` of the index
  array (all 20 positions), and stores a `[128, 20, 1000]` block whose entry at (row `p`, position `q`, class `k`) is
  "class number = word", widened to 32 bits and read signed: the comparison of the class coordinate `k` (an iota along
  the last axis) with the word at (`p`, `q`) carried to every class (a trailing unit axis added, then repeated along
  it). That is the indicator of "the word at (`p`, `q`) is `k`" (`payload_apply`).

  Row `p` of block `t` is row `128 t + p` of the array, for the index array and for the result alike, and the position
  and class axes are not cut; so what block `t` writes back is block `t` of the expansion of the whole index array
  (`written_back_eq`). Row `r` lies in block `r / 128`, so the 32 blocks cover the result array (`rows_covered`) and it
  ends holding the expansion (`result_eq`, `run`).
-/
import proofs.«155616_g16260746183207_cont_sun_c4_425_4_alg».proof.Defs
import proofs.«155616_g16260746183207_cont_sun_c4_425_4_alg».proof.Proof.Gen.KernelIdeal.Frame
import proofs.«155616_g16260746183207_cont_sun_c4_425_4_alg».proof.Proof.Gen.KernelIdeal.Value
import proofs.«155616_g16260746183207_cont_sun_c4_425_4_alg».proof.Proof.OneHot
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.OneHotValue

open Cert.KernelIdeal Cert.KernelIdeal.Gen Cert.KernelIdeal.Value

/-! ## One block: the body's stored value at (row, position, class) -/

/-- A `[128, 20]` block of words given a trailing unit axis and repeated along it 1000 times reads, at
    (row, position, class), the word at (row, position). -/
theorem carried_apply (x0 : IVec S128x20 32) (hc : S128x20.ShapeCasts S128x20x1) (hb : S128x20x1.Broadcasts S128x20x1000)
    (p : Fin 128) (q : Fin 20) (k : Fin 1000) :
    broadcastTo S128x20x1000 (shapeCast S128x20x1 x0 hc) hb (ix3 p q k) = x0 (ix2 p q) := by
  refine (broadcastTo_apply _ hb (ix3 p q k) (ix3 p q (0 : Fin 1)) (fun a => ?_)).trans ?_
  · match a with
    | ⟨0, _⟩ => show p.val = if (128 : Nat) = 1 then 0 else p.val; rw [if_neg (by decide)]
    | ⟨1, _⟩ => show q.val = if (20 : Nat) = 1 then 0 else q.val; rw [if_neg (by decide)]
    | ⟨2, _⟩ => show 0 = if (1 : Nat) = 1 then 0 else k.val; rw [if_pos rfl]
  · refine shapeCast_apply x0 hc (ix3 p q (0 : Fin 1)) (ix2 p q) ?_
    rw [Shape.rowMajor_val_two, Shape.rowMajor_val_three]
    show p.val * 20 + q.val = (p.val * 20 + q.val) * 1 + 0
    omega

/-- The stored value at (row `p`, position `q`, class `k`) is the indicator of "the word at (`p`, `q`) is `k`". -/
theorem payload_apply (x0 : Vec Ideal S128x20 .i32) (p : Fin 128) (q : Fin 20) (k : Fin 1000) :
    k0_pay1 (F := Ideal) x0 (ix3 p q k) = Cert.OneHot.indicator (x0 (ix2 p q)) k.val := by
  unfold k0_pay1
  show FloatOps.sitofp (F := Ideal) .f32
      ((IntOp.cmpi .eq (iota .tc S128x20x1000 32 [2] iota_S128x20x1000_d2_w32 (ix3 p q k))
        (broadcastTo S128x20x1000 (shapeCast S128x20x1 x0 shapeCasts_S128x20_S128x20x1) broadcasts_S128x20x1_S128x20x1000 (ix3 p q k))).setWidth 32) = _
  rw [iota_single_apply, carried_apply]
  exact Cert.OneHot.signed_widened_eq _ _

/-- The same at any index of the block, by its coordinates. -/
theorem payload_at (x0 : Vec Ideal S128x20 .i32) (j : S128x20x1000.Idx) :
    k0_pay1 (F := Ideal) x0 j = Cert.OneHot.indicator (x0 (ix2 (j 0) (j 1))) (j 2).val := by
  obtain ⟨p, q, k, rfl⟩ : ∃ (p : Fin 128) (q : Fin 20) (k : Fin 1000), j = ix3 p q k := ⟨j 0, j 1, j 2, eq_ix3 j⟩
  exact payload_apply x0 p q k

/-! ## From blocks to the array -/

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps over the 32 grid points: both windows are at row block `t`, and neither the positions nor
    the classes are cut. -/
theorem block_indices : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- What grid point `t` writes back is block `t` of the one-hot expansion of the index array. -/
theorem written_back_eq (c : Dev nD) (t : Fin cfg0.N) :
    (dats m 0 c).flushed 1 t = ((cfg0.win 1).blk t).view.read (Elt Ideal) (Cert.OneHot.expand (V m c main_arg0)) := by
  rw [Value.flushed1]
  unfold out0_1
  rw [View.canon_unit_zero zero3]
  simp only [View.ld_unit_zero (S := S128x20) zero2]
  obtain ⟨e0, e1, e2, e3, e4⟩ := block_indices t
  funext j
  show k0_pay1 (F := Ideal) (iblk m c 0 t) j = Cert.OneHot.expand (V m c main_arg0) (((cfg0.win 1).blk t).view.emb j)
  refine (payload_at (iblk m c 0 t) j).trans ?_
  show Cert.OneHot.indicator (V m c main_arg0 (((cfg0.win 0).blk t).view.emb (ix2 (j 0) (j 1)))) (j 2).val
    = Cert.OneHot.indicator (V m c main_arg0 (ix2 ((((cfg0.win 1).blk t).view.emb j) 0) ((((cfg0.win 1).blk t).view.emb j) 1)))
        ((((cfg0.win 1).blk t).view.emb j) 2).val
  have hrow : ((cfg0.win 0).blk t).view.emb (ix2 (j 0) (j 1))
      = ix2 ((((cfg0.win 1).blk t).view.emb j) 0) ((((cfg0.win 1).blk t).view.emb j) 1) := by
    funext a; apply Fin.ext
    match a with
    | ⟨0, _⟩ => show win0_0.index t (0 : Fin 2) * 128 + 1 * (j 0).val = win0_1.index t (0 : Fin 3) * 128 + 1 * (j 0).val; omega
    | ⟨1, _⟩ => show win0_0.index t (1 : Fin 2) * 20 + 1 * (j 1).val = win0_1.index t (1 : Fin 3) * 20 + 1 * (j 1).val; omega
  have hclass : ((((cfg0.win 1).blk t).view.emb j) 2).val = (j 2).val := by
    show win0_1.index t (2 : Fin 3) * 1000 + 1 * (j 2).val = (j 2).val; omega
  rw [hrow, hclass]
  rfl

/-- An index of the result array is in point `t`'s block iff each coordinate is in the block's range on its axis. -/
theorem mem_block (t : Fin cfg0.N) (i : S4096x20x1000.Idx) :
    i ∈ ((cfg0.win 1).blk t).view.set ↔ ∀ a : Fin 3, win0_1.index t a * S128x20x1000.size a ≤ (i a).val ∧ (i a).val < win0_1.index t a * S128x20x1000.size a + S128x20x1000.size a := by
  show i ∈ ((View.whole main_v0).slice (win0_1.rect t)).set ↔ _
  rw [View.set_slice_whole, Rect.mem_set_unit]
  exact Iff.rfl

/-- Every index of the result array is in some point's block: row `r` is in block `r / 128`. -/
theorem rows_covered (i : S4096x20x1000.Idx) :
    ∃ t : Fin cfg0.N, (cfg0.win 1).flush t = true ∧ i ∈ ((cfg0.win 1).blk t).view.set := by
  have hi0 : (i 0).val < 4096 := (i 0).isLt
  have hi1 : (i 1).val < 20 := (i 1).isLt
  have hi2 : (i 2).val < 1000 := (i 2).isLt
  have hN : cfg0.N = 32 := N_0
  let t : Fin cfg0.N := ⟨(i 0).val / 128, by rw [hN]; omega⟩
  have ht : t.val = (i 0).val / 128 := rfl
  obtain ⟨-, -, e2, e3, e4⟩ := block_indices t
  refine ⟨t, flush0_1 t, ?_⟩
  rw [mem_block]
  intro a
  match a with
  | ⟨0, _⟩ => show win0_1.index t (0 : Fin 3) * 128 ≤ (i 0).val ∧ (i 0).val < win0_1.index t (0 : Fin 3) * 128 + 128; omega
  | ⟨1, _⟩ => show win0_1.index t (1 : Fin 3) * 20 ≤ (i 1).val ∧ (i 1).val < win0_1.index t (1 : Fin 3) * 20 + 20; omega
  | ⟨2, _⟩ => show win0_1.index t (2 : Fin 3) * 1000 ≤ (i 2).val ∧ (i 2).val < win0_1.index t (2 : Fin 3) * 1000 + 1000; omega

/-- The result array after the run is the one-hot expansion of the index array as launched. -/
theorem result_eq (c : Dev nD) :
    (dats m 0 c).arrAt 1 cfg0.N = Cert.OneHot.expand (m ((c : Thread nD τ).loc main_arg0)) :=
  (dats m 0 c).arrAt_eq_of_cover 1 (Cert.OneHot.expand (V m c main_arg0)) (fun t _ => written_back_eq m c t) rows_covered

/-- The run, read: the result array at the expansion of the argument, the argument unchanged. -/
theorem run : θ_run defs (onTc (τ := τ) (main (F := Ideal))) ⟨m, fun _ => 0, ρ⟩ fun r => ∀ c : Dev nD,
      r.2.mem ((c : Thread nD τ).loc main_v0) = Cert.OneHot.expand (m ((c : Thread nD τ).loc main_arg0))
      ∧ r.2.mem ((c : Thread nD τ).loc main_arg0) = m ((c : Thread nD τ).loc main_arg0) :=
  (θ_run defs _ _).mono (fun _ h c => ⟨(h c).1.trans (result_eq m c), (h c).2⟩) (Value.run_blocks m ρ)

end Cert.KernelIdeal.OneHotValue

end
-- ==== Proof.ReferenceValue.lean ====
/-
  The reference's result array is the one-hot expansion of its argument.

  The reference carries each word of the `[4096, 20]` index array to all 1000 classes (a trailing unit axis, then
  repeated along it), carries the class numbers `0 … 999` (an iota along the last axis of a `[1, 1, 1000]` array) to all
  rows and positions, compares "word = class number" element by element, and reads the resulting bit unsigned. At
  (row, position, class `k`) that is the indicator of "the word at (row, position) is `k`".
-/
import proofs.«155616_g16260746183207_cont_sun_c4_425_4_alg».proof.Defs
import proofs.«155616_g16260746183207_cont_sun_c4_425_4_alg».proof.Proof.Gen.ReferenceIdeal.Run
import proofs.«155616_g16260746183207_cont_sun_c4_425_4_alg».proof.Proof.Gen.ReferenceIdeal.Read
import proofs.«155616_g16260746183207_cont_sun_c4_425_4_alg».proof.Proof.OneHot
import Idealize.ShloMosaic.Lib.ValueIdx

noncomputable section

open Idealize.ShloMosaic Idealize.ShloMosaic.TcCoe Idealize.SL.Sem Idealize.ShloMosaic.ValueIdx

namespace Cert.ReferenceIdeal.OneHotValue

open Cert.ReferenceIdeal Cert.ReferenceIdeal.Read

/-- Reading the word carried to (row, position, class) goes back to (row, position) of the index array. -/
theorem word_index (i : S4096x20x1000.Idx) : idx_main_call0_v0 (idx_main_call0_v2 i) = ix2 (i 0) (i 1) :=
  funext fun a => match a with | ⟨0, _⟩ => rfl | ⟨1, _⟩ => rfl

/-- The reference's result, as a function of the index array, is its one-hot expansion. -/
theorem result_eq (x : (⟨S4096x20, .i32⟩ : BufTy).Contents (Elt Ideal)) :
    val_main_v0 (F := Ideal) x = Cert.OneHot.expand x := by
  funext i
  rw [val_main_v0_apply, val_main_call0_v4_apply, val_main_call0_v2_apply, val_main_call0_v0_apply,
    val_main_call0_v3_apply, val_main_call0_v1_apply, word_index]
  exact Cert.OneHot.unsigned_eq _ _

end Cert.ReferenceIdeal.OneHotValue

end
-- ==== Proof.lean ====
/-
  One-hot expansion of a `[4096, 20]` array of 32-bit words over 1000 classes: a kernel that writes the
  `[4096, 20, 1000]` result 128 rows at a time, against the whole-array formulation.

  Both programs compute, at (row, position, class `k`), the indicator of "the word at (row, position) is `k`" as an
  extended real — 1 where it is, 0 elsewhere — (Proof/OneHot.lean). The kernel compares "class = word", widens the bit
  and reads it signed; the whole-array program compares "word = class" and reads the bit unsigned; the two readings of
  a bit agree and equality is symmetric. A word that is no class number (negative, or 1000 and above) gives an
  all-zero row on both sides, so the claim needs nothing of the words.

  The kernel's result array is the expansion because each of its 32 row blocks is that block of the expansion and the
  blocks cover the rows (Proof/KernelValue.lean); the whole-array program's is by reading its six operations at an
  index (Proof/ReferenceValue.lean). No float arithmetic meets: nothing is rewritten between the printed kernel and its
  idealization, so that conjunct is trivial.
-/
import proofs.«155616_g16260746183207_cont_sun_c4_425_4_alg».proof.Defs
import proofs.«155616_g16260746183207_cont_sun_c4_425_4_alg».proof.Proof.Gen.Kernel
import proofs.«155616_g16260746183207_cont_sun_c4_425_4_alg».proof.Proof.Gen.Kernel.Frame
import proofs.«155616_g16260746183207_cont_sun_c4_425_4_alg».proof.Proof.Gen.KernelIdeal
import proofs.«155616_g16260746183207_cont_sun_c4_425_4_alg».proof.Proof.Gen.KernelIdeal.Frame
import proofs.«155616_g16260746183207_cont_sun_c4_425_4_alg».proof.Proof.Gen.KernelIdeal.Value
import proofs.«155616_g16260746183207_cont_sun_c4_425_4_alg».proof.Proof.Gen.ReferenceIdeal
import proofs.«155616_g16260746183207_cont_sun_c4_425_4_alg».proof.Proof.Gen.ReferenceIdeal.Run
import proofs.«155616_g16260746183207_cont_sun_c4_425_4_alg».proof.Proof.Gen.ReferenceIdeal.Read
import proofs.«155616_g16260746183207_cont_sun_c4_425_4_alg».proof.Proof.Gen.Pre_any_inputs
import proofs.«155616_g16260746183207_cont_sun_c4_425_4_alg».proof.Proof.OneHot
import proofs.«155616_g16260746183207_cont_sun_c4_425_4_alg».proof.Proof.KernelValue
import proofs.«155616_g16260746183207_cont_sun_c4_425_4_alg».proof.Proof.ReferenceValue

noncomputable section

namespace Cert.Proof

open Idealize.ShloMosaic Idealize.SL.Sem

/-- The printed kernel runs and leaves the index array as it was. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The whole-array program runs and leaves the index array as it was: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the index array, both programs end with the result array at the one-hot expansion of
    that array. -/
theorem algebraic : Cert.algebraic_KernelIdeal_ReferenceIdeal := by
  intro m ρ m' ρ' _ hagree
  refine ⟨fun c => Cert.OneHot.expand (m ((c.tc : Thread Cert.KernelIdeal.nD Cert.KernelIdeal.τ).loc Cert.KernelIdeal.main_arg0)),
    Cert.KernelIdeal.OneHotValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.OneHotValue.result_eq, hagree c]

theorem claim : Cert.Claim :=
  ⟨Cert.Kernel.Gen.facts, Cert.KernelIdeal.Gen.facts, Cert.ReferenceIdeal.Gen.facts, Cert.Pre_any_inputs.Gen.facts,
    frame_kernel, frame_kernel_ideal, frame_reference_ideal, trivial, algebraic⟩

end Cert.Proof

end
